-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1024x512 : Shape := ⟨2, ![1024, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S512x512 .f32) (main_arg1 : FVec F S1024x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S512x512 : Shape := ⟨2, ![512, 512]⟩
abbrev S1024x512 : Shape := ⟨2, ![1024, 512]⟩
abbrev S512x1024 : Shape := ⟨2, ![512, 1024]⟩
abbrev S128x512 : Shape := ⟨2, ![128, 512]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S512x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x512_S128x512_0_0 : ∀ a, (![0, 0] : Fin 2 → Nat) a + S128x512.size a ≤ S128x512.size a
  h_S128x512 : 0 < S128x512.numel
  slices_S128x512_o0_0_S128x128 : S128x512.Slices ![0, 0] S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  slices_S128x512_o0_128_S128x128 : S128x512.Slices ![0, 128] S128x128
  slices_S128x512_o0_256_S128x128 : S128x512.Slices ![0, 256] S128x128
  slices_S128x512_o0_384_S128x128 : S128x512.Slices ![0, 384] S128x128
  inb_S128x128_S128x128_0_0 : ∀ a, (![0, 0] : Fin 2 → Nat) a + S128x128.size a ≤ S128x128.size a
  h_S128x128 : 0 < S128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x512.size a
  hwx0_1 : ∀ i : grid0.Coords, EltTy.bits .f32 = 32 ∨ (Rect.block (s := S1024x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x1024.size a
  hwx0_2 : ∀ i : grid0.Coords, EltTy.bits .f32 = 32 ∨ (Rect.block (s := S512x1024) S128x128.size (cc0_transform_2 i) (hinb0_2 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512 : Shape := ⟨2, ![512, 512]⟩
abbrev S1024x512 : Shape := ⟨2, ![1024, 512]⟩
abbrev S512x1x512 : Shape := ⟨3, ![512, 1, 512]⟩
abbrev S1x1024x512 : Shape := ⟨3, ![1, 1024, 512]⟩
abbrev S512x1024x512 : Shape := ⟨3, ![512, 1024, 512]⟩
abbrev S_ : Shape := ⟨0, ![]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S512x1x512, .f32⟩
  | .hbm, ⟨3, _⟩ => ⟨S1x1024x512, .f32⟩
  | .hbm, ⟨4, _⟩ => ⟨S512x1024x512, .f32⟩
  | .hbm, ⟨5, _⟩ => ⟨S512x1024x512, .f32⟩
  | .hbm, ⟨6, _⟩ => ⟨S512x1024x512, .f32⟩
  | .hbm, ⟨7, _⟩ => ⟨S_, .f32⟩
  | .hbm, ⟨8, _⟩ => ⟨S512x1024, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S512x512_S512x1x512_0_2 : S512x512.BroadcastsInDim S512x1x512 (![0, 2] : Fin 2 → Fin S512x1x512.rank)
  bcast_S1024x512_S1x1024x512_1_2 : S1024x512.BroadcastsInDim S1x1024x512 (![1, 2] : Fin 2 → Fin S1x1024x512.rank)
  bcast_S512x1x512_S512x1024x512_0_1_2 : S512x1x512.BroadcastsInDim S512x1024x512 (![0, 1, 2] : Fin 3 → Fin S512x1024x512.rank)
  bcast_S1x1024x512_S512x1024x512_0_1_2 : S1x1024x512.BroadcastsInDim S512x1024x512 (![0, 1, 2] : Fin 3 → Fin S512x1024x512.rank)
  reducesTo_S512x1024x512_S512x1024_d2 : S512x1024x512.ReducesTo [2] S512x1024
  h_S_ : 0 < S_.numel

variable [Facts₀]

class Facts : Prop extends Facts₀ where

variable [Facts]
-- ==== Proof.MinPlus.lean ====
/-
  The min-plus ("tropical") product of two matrices over the extended reals, and the one order fact the
  certificate rests on: the minimum of a row of 512 sums, taken from a starting value, is the same whether the row
  is scanned whole or in four consecutive stretches of 128 whose partial minima are then combined. Only that
  `min` is the meet of a linear order is used — no arithmetic, so nothing here asks the entries to be finite.
-/
import Idealize.ShloMosaic.PureOps.Ideal
import Idealize.ShloMosaic.Lib.ValueIdx
import Mathlib.Data.Finset.Fold

noncomputable section

namespace Cert.MinPlus

open Idealize.ShloMosaic Idealize.ShloMosaic.ValueIdx

/-- Position `o + k` of a row of 512, for a stretch of 128 starting at `o`. -/
def at128 (o : Nat) (ho : o + 128 ≤ 512) (k : Fin 128) : Fin 512 := ⟨o + k.val, by have := k.isLt; omega⟩

theorem at128_val (o : Nat) (ho : o + 128 ≤ 512) (k : Fin 128) : (at128 o ho k).val = o + k.val := rfl

/-- The minimum over a stretch of 128 positions starting at `o`, from the starting value `I`. -/
def stretchMin {α : Type} [LinearOrder α] (I : α) (f : Fin 512 → α) (o : Nat) (ho : o + 128 ≤ 512) : α :=
  (Finset.univ : Finset (Fin 128)).fold min I (fun k => f (at128 o ho k))

/-- SCANNING IN FOUR STRETCHES: the minimum of `f` over all 512 positions from `I` is `I` combined, one after the
    other, with the minima over positions 0–127, 128–255, 256–383 and 384–511, each again taken from `I`.
    A bound `c` is below either side exactly when it is below `I` and below every `f j`; a position `j` lies in
    the stretch that starts at `128 · (j / 128)`. -/
theorem fold_min_four_stretches {α : Type} [LinearOrder α] (I : α) (f : Fin 512 → α) :
    (Finset.univ : Finset (Fin 512)).fold min I f
      = min (min (min (min I (stretchMin I f 0 (by omega))) (stretchMin I f 128 (by omega)))
          (stretchMin I f 256 (by omega))) (stretchMin I f 384 (by omega)) := by
  refine eq_of_forall_le_iff fun c => ?_
  unfold stretchMin
  simp only [Finset.le_fold_min, le_min_iff, Finset.mem_univ, forall_true_left]
  constructor
  · rintro ⟨hI, hf⟩
    exact ⟨⟨⟨⟨hI, hI, fun k => hf _⟩, hI, fun k => hf _⟩, hI, fun k => hf _⟩, hI, fun k => hf _⟩
  · rintro ⟨⟨⟨⟨hI, -, h0⟩, -, h1⟩, -, h2⟩, -, h3⟩
    refine ⟨hI, fun j => ?_⟩
    have hj : j.val < 512 := j.isLt
    by_cases c0 : j.val < 128
    · have e : j = at128 0 (by omega) ⟨j.val, c0⟩ := Fin.ext (by rw [at128_val]; show j.val = 0 + j.val; omega)
      rw [e]; exact h0 _
    by_cases c1 : j.val < 256
    · have e : j = at128 128 (by omega) ⟨j.val - 128, by omega⟩ := Fin.ext (by rw [at128_val]; show j.val = 128 + (j.val - 128); omega)
      rw [e]; exact h1 _
    by_cases c2 : j.val < 384
    · have e : j = at128 256 (by omega) ⟨j.val - 256, by omega⟩ := Fin.ext (by rw [at128_val]; show j.val = 256 + (j.val - 256); omega)
      rw [e]; exact h2 _
    · have e : j = at128 384 (by omega) ⟨j.val - 384, by omega⟩ := Fin.ext (by rw [at128_val]; show j.val = 384 + (j.val - 384); omega)
      rw [e]; exact h3 _

/-- THE MIN-PLUS PRODUCT, entry by entry: row `b` of `x` against row `o` of `w`, the minimum over the 512 shared
    positions `j` of `x[b, j] + w[o, j]`, taken from the starting value `I` (both programs start from the pattern of
    +∞; it is kept as a parameter because the argument never looks at it). -/
def prod (I : EReal) (x : (⟨2, ![512, 512]⟩ : Shape).Idx → EReal) (w : (⟨2, ![1024, 512]⟩ : Shape).Idx → EReal) :
    (⟨2, ![512, 1024]⟩ : Shape).Idx → EReal :=
  fun i => (Finset.univ : Finset (Fin 512)).fold min I (fun j => x (ix2 (i 0) j) + w (ix2 (i 1) j))

end Cert.MinPlus

end
-- ==== Proof.LibMinReduce.lean ====
/-
  General facts for reading a minimum-reduction over ONE axis at the ideal values (extended reals, `minimumf` = `min`).
  * `Ideal.multiReduction_minimumf_single`: a vector `multi_reduction <minimumf>` over one axis, at a result index `j`,
    is the fold of `min` from the accumulator's value over that axis's coordinates `k`, the source read at `j` with
    `k` inserted (`Shape.Reduces.lift`) — the `<minimumf>` twin of the library's `multiReduction_maximumf_single`.
  * `lift_last_of_three`: for a rank-3 source reduced over its LAST axis to a rank-2 result, the index over
    `(p, q)` with coordinate `k` inserted is `(p, q, k)`.
-/
import Idealize.ShloMosaic.PureOps.Ideal.Laws
import Idealize.ShloMosaic.Lib.ValueIdx

noncomputable section

namespace Idealize.ShloMosaic

open ValueIdx

namespace Ideal

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Ideal

/-- Reducing a rank-3 shape over its last axis: the source index over `(p, q)` whose last coordinate is `k`. -/
theorem lift_last_of_three {n0 n1 n2 : Nat}
    (h : (⟨3, ![n0, n1, n2]⟩ : Shape).Reduces [2] ⟨2, ![n0, n1]⟩) (p : Fin n0) (q : Fin n1) (k : Fin n2) :
    h.lift (ix2 p q) k = ix3 p q k := by
  funext c
  apply Fin.ext
  show h.liftVal (ix2 p q) k.val c = _
  match c with
  | ⟨0, _⟩ => rfl
  | ⟨1, _⟩ => rfl
  | ⟨2, _⟩ => rfl

end Idealize.ShloMosaic

end
-- ==== Proof.Body.lean ====
/-
  What the kernel body computes from its two loaded blocks, entry by entry, at the ideal values.
  The body holds a [128, 512] block of `x` (rows `p`) and a [128, 512] block of `w` (rows `q`). For each of the four
  stretches of 128 columns starting at 0, 128, 256, 384 it forms the [128, 128, 128] array of sums
  `x[p, o + k] + w[q, o + k]`, takes the minimum over `k` from +∞, and folds that into a running minimum that also
  starts at +∞. By the four-stretch law of `MinPlus` the result at `(p, q)` is the minimum over all 512 columns
  `j` of `x[p, j] + w[q, j]`.
-/
import proofs.«113844_j46557445489434_1_alg».proof.Proof.Gen.KernelIdeal.Value
import proofs.«113844_j46557445489434_1_alg».proof.Proof.MinPlus
import proofs.«113844_j46557445489434_1_alg».proof.Proof.LibMinReduce
import Idealize.ShloMosaic.Lib.Pipeline.Value

noncomputable section

namespace Cert.KernelIdeal.Body

open Cert.KernelIdeal Cert.KernelIdeal.Gen
open Idealize.ShloMosaic Idealize.ShloMosaic.ValueIdx Cert.MinPlus

/-- ONE STRETCH: the sums over the stretch of 128 columns starting at `o`, laid out as [128, 128, 128] by the two
    shape casts and broadcasts and reduced over the last axis, give at `(p, q)` the minimum over `k` of
    `x[p, o + k] + w[q, o + k]`. The summand at `(p, q, k)`: the first broadcast reads `(p, 0, k)` of the
    [128, 1, 128] cast, which is `(p, k)` of the slice, which is `(p, o + k)` of the block; the second reads
    `(0, q, k)`, then `(q, k)`, then `(q, o + k)`. -/
theorem stretch_apply (o : Nat) (ho : o + 128 ≤ 512) (hs : S128x512.Slices ![0, o] S128x128)
    (hc1 : S128x128.ShapeCasts S128x1x128) (hc2 : S128x128.ShapeCasts S1x128x128)
    (hb1 : S128x1x128.Broadcasts S128x128x128) (hb2 : S1x128x128.Broadcasts S128x128x128)
    (hr : S128x128x128.Reduces [2] S128x128) (hφ : FKind.Formats .f32)
    (hacc : (0x7F800000#32 : BitVec 32) = FKind.minimumf.neutral .f32 hφ)
    (x0 x1 : FVec Ideal S128x512 .f32) (p q : Fin 128) :
    multiReduction .minimumf [2] S128x128
        (addf (broadcastTo S128x128x128 (shapeCast S128x1x128 (extractStridedSlice S128x128 ![0, o] x0 hs) hc1) hb1)
          (broadcastTo S128x128x128 (shapeCast S1x128x128 (extractStridedSlice S128x128 ![0, o] x1 hs) hc2) hb2))
        0x7F800000#32 hr hφ hacc (ix2 p q)
      = (Finset.univ : Finset (Fin 128)).fold min (Ideal.ofBits .f32 0x7F800000#32)
          (fun k => x0 (ix2 p (at128 o ho k)) + x1 (ix2 q (at128 o ho k))) := by
  rw [Ideal.multiReduction_minimumf_single]
  refine congrArg (Finset.fold min _ · Finset.univ) (funext fun k => ?_)
  have hp : p.val < 128 := p.isLt
  have hq : q.val < 128 := q.isLt
  have hk : k.val < 128 := k.isLt
  show addf _ _ (hr.lift (ix2 p q) k) = _
  rw [lift_last_of_three hr p q k, addf_apply]
  congr 1
  · refine (broadcastTo_apply _ hb1 (ix3 p q k) (ix3 p (0 : Fin 1) k) (fun a => ?_)).trans ?_
    · match a with
      | ⟨0, _⟩ => rfl
      | ⟨1, _⟩ => rfl
      | ⟨2, _⟩ => rfl
    refine (shapeCast_apply _ hc1 (ix3 p (0 : Fin 1) k) (ix2 p k) ?_).trans ?_
    · rw [Shape.rowMajor_val_two, Shape.rowMajor_val_three]
      show p.val * 128 + k.val = (p.val * 1 + 0) * 128 + k.val
      omega
    exact extractStridedSlice_apply _ x0 hs (ix2 p k) (ix2 p (at128 o ho k)) (fun a => by
      match a with
      | ⟨0, _⟩ => show p.val = 0 + p.val; omega
      | ⟨1, _⟩ => rfl)
  · refine (broadcastTo_apply _ hb2 (ix3 p q k) (ix3 (0 : Fin 1) q k) (fun a => ?_)).trans ?_
    · match a with
      | ⟨0, _⟩ => rfl
      | ⟨1, _⟩ => rfl
      | ⟨2, _⟩ => rfl
    refine (shapeCast_apply _ hc2 (ix3 (0 : Fin 1) q k) (ix2 q k) ?_).trans ?_
    · rw [Shape.rowMajor_val_two, Shape.rowMajor_val_three]
      show q.val * 128 + k.val = (0 * 128 + q.val) * 128 + k.val
      omega
    exact extractStridedSlice_apply _ x1 hs (ix2 q k) (ix2 q (at128 o ho k)) (fun a => by
      match a with
      | ⟨0, _⟩ => show q.val = 0 + q.val; omega
      | ⟨1, _⟩ => rfl)

/-- THE BODY'S STORED VALUE at `(p, q)` is the minimum over all 512 columns `j` of `x[p, j] + w[q, j]`, from +∞:
    the four stretch minima (`stretch_apply`), combined with the running minimum, are the whole-row minimum
    (`fold_min_four_stretches`). -/
theorem payload_apply (x0 x1 : FVec Ideal S128x512 .f32) (p q : Fin 128) :
    k0_pay1 (F := Ideal) x0 x1 (ix2 p q)
      = (Finset.univ : Finset (Fin 512)).fold min (Ideal.ofBits .f32 0x7F800000#32)
          (fun j => x0 (ix2 p j) + x1 (ix2 q j)) := by
  rw [fold_min_four_stretches (Ideal.ofBits .f32 0x7F800000#32) (fun j => x0 (ix2 p j) + x1 (ix2 q j)),
    Cert.KernelIdeal.Value.lay2_0_eq (F := Ideal) x0 x1,
    minimumf_apply, minimumf_apply, minimumf_apply, minimumf_apply, broadcast_apply]
  unfold stretchMin
  refine congrArg₂ min (congrArg₂ min (congrArg₂ min (congrArg₂ min rfl ?_) ?_) ?_) ?_
  · exact stretch_apply 0 (by omega) _ _ _ _ _ _ _ _ x0 x1 p q
  · exact stretch_apply 128 (by omega) _ _ _ _ _ _ _ _ x0 x1 p q
  · exact stretch_apply 256 (by omega) _ _ _ _ _ _ _ _ x0 x1 p q
  · exact stretch_apply 384 (by omega) _ _ _ _ _ _ _ _ x0 x1 p q

end Cert.KernelIdeal.Body

end
-- ==== Proof.Blocks.lean ====
/-
  From the body to the whole result array. The grid has 4 × 8 points `(i, j)`; at a point the kernel holds block
  `(i, 0)` of `x` (rows 128·i …), block `(j, 0)` of `w` (rows 128·j …) and writes block `(i, j)` of the
  [512, 1024] result. Entry `(p, q)` of what the point writes is the row minimum of `x[128·i + p, ·] + w[128·j + q, ·]`
  (`Body.payload_apply`), i.e. entry `(128·i + p, 128·j + q)` of the min-plus product of the whole arrays; the 32
  blocks tile the result, so after the run the result array IS that product.
-/
import proofs.«113844_j46557445489434_1_alg».proof.Proof.Gen.KernelIdeal.Value
import proofs.«113844_j46557445489434_1_alg».proof.Proof.Body

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The pattern both programs start their minima from (+∞'s). -/
abbrev top : EReal := Ideal.ofBits .f32 0x7F800000#32

theorem zero_offsets : (![0, 0] : Fin 2 → Nat) = fun _ => 0 := funext fun a => by fin_cases a <;> rfl

/-- The three index maps over the 32 grid points: the `x` block follows the result block's row index, the `w` block
    its column index, both at column block 0; the result's block indices stay inside 4 × 8. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 7 :=
  (by decide +kernel : ∀ t : Fin grid0.N, _)

/-- Every one of the 4 × 8 result blocks is some grid point's. -/
theorem index_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- One entry of what a point writes, over plain arrays: if row `p` of the held `x` block is row `i 0` of the array
    `A0`, and row `q` of the held `w` block is row `i 1` of `A1`, the body's value at `(p, q)` is the product's at `i`. -/
theorem entry_eq (X0 X1 : FVec Ideal S128x512 .f32) (A0 : FVec Ideal S512x512 .f32) (A1 : FVec Ideal S1024x512 .f32)
    (p q : Fin 128) (i : S512x1024.Idx)
    (h0 : ∀ j : Fin 512, X0 (ix2 p j) = A0 (ix2 (i 0) j))
    (h1 : ∀ j : Fin 512, X1 (ix2 q j) = A1 (ix2 (i 1) j)) :
    k0_pay1 (F := Ideal) X0 X1 (ix2 p q) = Cert.MinPlus.prod top A0 A1 i := by
  unfold Cert.MinPlus.prod
  rw [Body.payload_apply]
  exact congrArg (Finset.fold min _ · Finset.univ) (funext fun j => congrArg₂ (· + ·) (h0 j) (h1 j))

/-- WHAT POINT `t` WRITES BACK is block `t` of the min-plus product of the two argument arrays. -/
theorem flushed_eq (c : Dev nD) (t : Fin cfg0.N) :
    (dats m 0 c).flushed 2 t
      = ((cfg0.win 2).blk t).view.read (Elt Ideal) (Cert.MinPlus.prod top (V m c main_arg0) (V m c main_arg1)) := by
  rw [flushed2]
  unfold out0_2
  rw [View.canon_unit_zero zero_offsets]
  simp only [View.ld_unit_zero (S := S128x512) zero_offsets]
  obtain ⟨e0, e1, e2, e3, -, -⟩ := index_facts t
  funext y
  obtain ⟨p, q, rfl⟩ : ∃ (p q : Fin 128), y = ix2 p q := ⟨y 0, y 1, eq_ix2 y⟩
  refine entry_eq (iblk m c 0 t) (iblk m c 1 t) (V m c main_arg0) (V m c main_arg1) p q
    (((cfg0.win 2).blk t).view.emb (ix2 p q)) (fun j => ?_) (fun j => ?_)
  · show V m c main_arg0 (((cfg0.win 0).blk t).view.emb (ix2 p j)) = V m c main_arg0 _
    refine congrArg (V m c main_arg0) (funext fun a => Fin.ext ?_)
    match a with
    | ⟨0, _⟩ =>
      show win0_0.index t (0 : Fin 2) * 128 + 1 * p.val = win0_2.index t (0 : Fin 2) * 128 + 1 * p.val
      omega
    | ⟨1, _⟩ =>
      show win0_0.index t (1 : Fin 2) * 512 + 1 * j.val = j.val
      omega
  · show V m c main_arg1 (((cfg0.win 1).blk t).view.emb (ix2 q j)) = V m c main_arg1 _
    refine congrArg (V m c main_arg1) (funext fun a => Fin.ext ?_)
    match a with
    | ⟨0, _⟩ =>
      show win0_1.index t (0 : Fin 2) * 128 + 1 * q.val = win0_2.index t (1 : Fin 2) * 128 + 1 * q.val
      omega
    | ⟨1, _⟩ =>
      show win0_1.index t (1 : Fin 2) * 512 + 1 * j.val = j.val
      omega

/-- An index of the result array is in point `t`'s block iff each coordinate is in the block's range on its axis. -/
theorem mem_block (t : Fin cfg0.N) (i : S512x1024.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0).slice (win0_2.rect t)).set ↔ _
  rw [View.set_slice_whole, Rect.mem_set_unit]
  exact Iff.rfl

/-- THE BLOCKS TILE THE RESULT: entry `(r, s)` lies in the block of the point whose result block index is
    `(r / 128, s / 128)`. -/
theorem covered (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ := index_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 128 ≤ (i 1).val ∧ (i 1).val < win0_2.index t (1 : Fin 2) * 128 + 128
    omega

/-- THE RESULT ARRAY after the run is the min-plus product of the argument arrays as launched. -/
theorem final (c : Dev nD) :
    (dats m 0 c).arrAt 2 cfg0.N
      = Cert.MinPlus.prod top (m ((c : Thread nD τ).loc main_arg0)) (m ((c : Thread nD τ).loc main_arg1)) :=
  (dats m 0 c).arrAt_eq_of_cover 2 (Cert.MinPlus.prod top (V m c main_arg0) (V m c main_arg1))
    (fun t _ => flushed_eq m c t) covered

/-- The kernel's run, read: the result at the min-plus product, the arguments unchanged. -/
theorem run : θ_run defs (onTc (τ := τ) (main (F := Ideal))) ⟨m, fun _ => 0, ρ⟩ fun r => ∀ c : Dev nD,
      r.2.mem ((c : Thread nD τ).loc main_v0)
        = Cert.MinPlus.prod top (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefRead.lean ====
/-
  The reference, read entry by entry at the ideal values. Its program broadcasts `x` along a new middle axis and
  `w` along a new leading axis to [512, 1024, 512], adds them, and takes the minimum over the last axis from the
  pattern of +∞. At result index `(b, o)` that is the minimum over `j` of `x[b, j] + w[o, j]`: the min-plus product.
-/
import proofs.«113844_j46557445489434_1_alg».proof.Proof.Gen.ReferenceIdeal.Read
import proofs.«113844_j46557445489434_1_alg».proof.Proof.MinPlus
import proofs.«113844_j46557445489434_1_alg».proof.Proof.LibMinReduce

noncomputable section

namespace Cert.ReferenceIdeal.RefValue

open Cert.ReferenceIdeal Cert.ReferenceIdeal.Gen Cert.ReferenceIdeal.Read
open Idealize.ShloMosaic Idealize.ShloMosaic.ValueIdx

/-- The reduction drops the last of three axes. -/
theorem red : S512x1024x512.Reduces [2] S512x1024 := by decide

/-- Under the two broadcasts, entry `(b, o, j)` of the first summand is `x[b, j]`. -/
theorem idx_x (b : Fin 512) (o : Fin 1024) (j : Fin 512) : idx_main_v0 (idx_main_v2 (ix3 b o j)) = ix2 b j :=
  funext fun a => Fin.ext (by match a with | ⟨0, _⟩ => rfl | ⟨1, _⟩ => rfl)

/-- and of the second summand `w[o, j]`. -/
theorem idx_w (b : Fin 512) (o : Fin 1024) (j : Fin 512) : idx_main_v1 (idx_main_v3 (ix3 b o j)) = ix2 o j :=
  funext fun a => Fin.ext (by match a with | ⟨0, _⟩ => rfl | ⟨1, _⟩ => rfl)

/-- THE REFERENCE'S RESULT is the min-plus product of its two arguments, from the pattern of +∞. -/
theorem result_eq (x : FVec Ideal S512x512 .f32) (w : FVec Ideal S1024x512 .f32) :
    val_main_v5 (F := Ideal) x w = Cert.MinPlus.prod (Ideal.ofBits .f32 0x7F800000#32) x w := by
  funext i
  obtain ⟨b, o, rfl⟩ : ∃ (b : Fin 512) (o : Fin 1024), i = ix2 b o := ⟨i 0, i 1, eq_ix2 i⟩
  unfold val_main_v5 Cert.MinPlus.prod
  rw [Host.reduce_eq_fold_single FloatOps.minimumf _ _ reducesTo_S512x1024x512_S512x1024_d2 red h_S_ (ix2 b o)]
  show Finset.fold min _ (fun j : Fin 512 => val_main_v4 (F := Ideal) x w (red.lift (ix2 b o) j))
    (Finset.univ : Finset (Fin 512)) = _
  refine congrArg (Finset.fold min _ · Finset.univ) (funext fun j => ?_)
  rw [lift_last_of_three red b o j, val_main_v4_apply, val_main_v2_apply, val_main_v0_apply, val_main_v3_apply,
    val_main_v1_apply, idx_x, idx_w]
  rfl

end Cert.ReferenceIdeal.RefValue

end
-- ==== Proof.lean ====
/-
  The min-plus ("tropical") matrix product `out[b, o] = min_j (x[b, j] + w[o, j])`, x : [512, 512], w : [1024, 512]:
  a tiled kernel against the one-line reference. Read over the extended reals both programs compute, at every
  entry `(b, o)`, the minimum over the 512 positions `j` of `x[b, j] + w[o, j]`, started from the pattern of +∞:

  * the reference adds the two arrays broadcast to [512, 1024, 512] and takes the minimum over the last axis
    (`RefRead.result_eq`);
  * the kernel, on a 4 × 8 grid, holds 128 rows of `x` and 128 rows of `w`, scans the 512 columns in four stretches
    of 128, and folds each stretch's minimum into a running minimum (`Body.payload_apply`); a minimum over a row
    is the same scanned whole or in stretches (`MinPlus.fold_min_four_stretches`: `min` is a meet, nothing else is
    used); the 32 written blocks tile the result (`Whole.final`).

  The sums `x[b, j] + w[o, j]` are the same terms on both sides and are never rearranged, so the argument does not
  need the inputs to be finite and never opens the precondition. The frames are the generated ones; the kernel's
  idealization rewrote nothing, so its conjunct is `True`.
-/
import proofs.«113844_j46557445489434_1_alg».proof.Defs
import proofs.«113844_j46557445489434_1_alg».proof.Proof.Gen.Kernel
import proofs.«113844_j46557445489434_1_alg».proof.Proof.Gen.Kernel.Skeleton
import proofs.«113844_j46557445489434_1_alg».proof.Proof.Gen.Kernel.Launch
import proofs.«113844_j46557445489434_1_alg».proof.Proof.Gen.Kernel.Points
import proofs.«113844_j46557445489434_1_alg».proof.Proof.Gen.Kernel.Frame
import proofs.«113844_j46557445489434_1_alg».proof.Proof.Gen.KernelIdeal
import proofs.«113844_j46557445489434_1_alg».proof.Proof.Gen.KernelIdeal.Skeleton
import proofs.«113844_j46557445489434_1_alg».proof.Proof.Gen.KernelIdeal.Launch
import proofs.«113844_j46557445489434_1_alg».proof.Proof.Gen.KernelIdeal.Points
import proofs.«113844_j46557445489434_1_alg».proof.Proof.Gen.KernelIdeal.Frame
import proofs.«113844_j46557445489434_1_alg».proof.Proof.Gen.ReferenceIdeal
import proofs.«113844_j46557445489434_1_alg».proof.Proof.Gen.Pre_finite_inputs
import proofs.«113844_j46557445489434_1_alg».proof.Proof.Gen.KernelIdeal.Value
import proofs.«113844_j46557445489434_1_alg».proof.Proof.Gen.ReferenceIdeal.Run
import proofs.«113844_j46557445489434_1_alg».proof.Proof.Gen.ReferenceIdeal.Read
import proofs.«113844_j46557445489434_1_alg».proof.Proof.Blocks
import proofs.«113844_j46557445489434_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs, faults nowhere and leaves `x` and `w` as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the min-plus product of the (agreeing) arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
